-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2x160x160x160 : Shape := ⟨5, ![4, 2, 160, 160, 160]⟩
abbrev S_ : Shape := ⟨0, ![]⟩

class Facts : Prop where
  bcast_S_S4x2x160x160x160 : S_.BroadcastsInDim S4x2x160x160x160 (![] : Fin 0 → Fin S4x2x160x160x160.rank)
  reducesTo_S4x2x160x160x160_S_d0_1_2_3_4 : S4x2x160x160x160.ReducesTo [0, 1, 2, 3, 4] S_
  h_S_ : 0 < S_.numel

variable [Facts]

def fn {F : FTy → Type} [FloatOps F] (main_arg0 : FVec F S4x2x160x160x160 .f32) (main_arg1 : FVec F S4x2x160x160x160 .f32) : IVec S_ 1 :=
  let main_v0 : FVec F S4x2x160x160x160 .f32 := Host.absf main_arg0
  let main_cst : FVec F S_ .f32 := constant S_ .f32 0x7F800000#32
  let main_v1 : FVec F S4x2x160x160x160 .f32 := broadcastInDim S4x2x160x160x160 ![] bcast_S_S4x2x160x160x160 main_cst
  let main_v2 : IVec S4x2x160x160x160 1 := cmpf .olt main_v0 main_v1
  let main_c : IVec S_ 1 := constantI S_ 1 1#1
  let main_v3 : IVec S_ 1 := (fun x v => Host.reduce IntOp.andi x v reducesTo_S4x2x160x160x160_S_d0_1_2_3_4 h_S_) main_v2 main_c
  let main_v4 : FVec F S4x2x160x160x160 .f32 := Host.absf main_arg1
  let main_cst_0 : FVec F S_ .f32 := constant S_ .f32 0x7F800000#32
  let main_v5 : FVec F S4x2x160x160x160 .f32 := broadcastInDim S4x2x160x160x160 ![] bcast_S_S4x2x160x160x160 main_cst_0
  let main_v6 : IVec S4x2x160x160x160 1 := cmpf .olt main_v4 main_v5
  let main_c_1 : IVec S_ 1 := constantI S_ 1 1#1
  let main_v7 : IVec S_ 1 := (fun x v => Host.reduce IntOp.andi x v reducesTo_S4x2x160x160x160_S_d0_1_2_3_4 h_S_) main_v6 main_c_1
  let main_v8 : IVec S_ 1 := andi main_v3 main_v7
  main_v8
-- ==== Kernel.lean ====
abbrev S4x2x160x160x160 : Shape := ⟨5, ![4, 2, 160, 160, 160]⟩
abbrev S256000x128 : Shape := ⟨2, ![256000, 128]⟩
abbrev S1x1 : Shape := ⟨2, ![1, 1]⟩
abbrev S8000x128 : Shape := ⟨2, ![8000, 128]⟩
abbrev S8000 : Shape := ⟨1, ![8000]⟩
abbrev S8000x1 : Shape := ⟨2, ![8000, 1]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S4x2x160x160x160, .f32⟩
  | .hbm, ⟨1, _⟩ => ⟨S4x2x160x160x160, .f32⟩
  | .hbm, ⟨2, _⟩ => ⟨S256000x128, .f32⟩
  | .hbm, ⟨3, _⟩ => ⟨S256000x128, .f32⟩
  | .hbm, ⟨4, _⟩ => ⟨S1x1, .f32⟩
  | .hbm, ⟨5, _⟩ => ⟨S_, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S1x1, .f32⟩
  | .local _ .vmem, ⟨5, _⟩ => ⟨S1x1, .f32⟩
  | _, _ => ⟨S4x2x160x160x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v28 : BitVec 1 := Scalar.cmpi .eq arg0 c31_i32
  let v29 : BitVec 32 := Scalar.extui v28
  let c0_i32_11 : BitVec 32 := 0#32
  let v30 : BitVec 1 := Scalar.cmpi .ne v29 c0_i32_11
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S4x2x160x160x160_S256000x128 : S4x2x160x160x160.ShapeCasts S256000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  natLt_1_32 : 1 < 32
  reduces_S8000x128_S8000 : S8000x128.Reduces [1] S8000
  shapeCasts_S8000_S8000x1 : S8000.ShapeCasts S8000x1
  reduces_S8000x1_S1 : S8000x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S256000x128.size a
  hwx0_0 : ∀ i : grid0.Coords, EltTy.bits .f32 = 32 ∨ (Rect.block (s := S256000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S256000x128.size a
  hwx0_1 : ∀ i : grid0.Coords, EltTy.bits .f32 = 32 ∨ (Rect.block (s := S256000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2x160x160x160 : Shape := ⟨5, ![4, 2, 160, 160, 160]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4x2x160x160x160, .f32⟩
  | .hbm, ⟨1, _⟩ => ⟨S4x2x160x160x160, .f32⟩
  | .hbm, ⟨2, _⟩ => ⟨S_, .f32⟩
  | .hbm, ⟨3, _⟩ => ⟨S4x2x160x160x160, .f32⟩
  | .hbm, ⟨4, _⟩ => ⟨S4x2x160x160x160, .i1⟩
  | .hbm, ⟨5, _⟩ => ⟨S_, .f32⟩
  | .hbm, ⟨6, _⟩ => ⟨S4x2x160x160x160, .f32⟩
  | .hbm, ⟨7, _⟩ => ⟨S4x2x160x160x160, .i1⟩
  | .hbm, ⟨8, _⟩ => ⟨S4x2x160x160x160, .i1⟩
  | .hbm, ⟨9, _⟩ => ⟨S4x2x160x160x160, .f32⟩
  | .hbm, ⟨10, _⟩ => ⟨S4x2x160x160x160, .f32⟩
  | .hbm, ⟨11, _⟩ => ⟨S4x2x160x160x160, .f32⟩
  | .hbm, ⟨12, _⟩ => ⟨S4x2x160x160x160, .f32⟩
  | .hbm, ⟨13, _⟩ => ⟨S4x2x160x160x160, .f32⟩
  | .hbm, ⟨14, _⟩ => ⟨S_, .f32⟩
  | .hbm, ⟨15, _⟩ => ⟨S_, .f32⟩
  | _, _ => ⟨S4x2x160x160x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S_S4x2x160x160x160 : S_.BroadcastsInDim S4x2x160x160x160 (![] : Fin 0 → Fin S4x2x160x160x160.rank)
  reducesTo_S4x2x160x160x160_S_d0_1_2_3_4 : S4x2x160x160x160.ReducesTo [0, 1, 2, 3, 4] S_
  h_S_ : 0 < S_.numel

variable [Facts₀]

class Facts : Prop extends Facts₀ where

variable [Facts]
-- ==== Proof.Voxel.lean ====
/-
  One voxel of the masked squared error, on the extended reals.

  Both programs binarise the prediction `p` and the target `t` at one half, take the disagreement of the two bits as
  a 0/1 weight `w`, the target's bit as the forced value `f`, and contribute `w · (p − f)²` to the loss.  They spell
  it differently: one widens each bit to a 32-bit integer and converts that as a signed integer, forms the
  disagreement as an exclusive-or, and multiplies `(w · d) · d`; the other converts the one-bit values as unsigned
  integers, forms the disagreement as a comparison, and multiplies `w · (d · d)`.  A one-bit value widened with
  zeros is 0 or 1 whichever way it is read, the exclusive-or of two bits is their being different, and
  multiplication of extended reals is associative: so the two spellings are one function, at every pair of
  extended reals, the infinite ones included.
-/
import Idealize.ShloMosaic.PureOps.Ideal
import Idealize.ShloMosaic.PureOps.Ideal.Laws

noncomputable section

namespace Cert.TopoLoss

open Idealize.ShloMosaic

/-- A bit widened with zeros to 32 bits, read as a signed integer, is the bit read as an unsigned integer. -/
theorem widen_signed (b : BitVec 1) :
    FloatOps.sitofp (F := Ideal) .f32 (b.setWidth 32) = FloatOps.uitofp (F := Ideal) .f32 b := by
  have h : (b.setWidth 32).toInt = (b.toNat : ℤ) := by revert b; decide
  show (((b.setWidth 32).toInt : ℝ) : EReal) = ((b.toNat : ℝ) : EReal)
  rw [h, Int.cast_natCast]

/-- The exclusive-or of two bits is the bit saying that they differ. -/
theorem xor_bits (a b : BitVec 1) : IntOp.xori a b = IntOp.cmpi .ne a b := by revert a b; decide

/-- The threshold of the binarisation, one half. -/
abbrev half : EReal := Ideal.ofBits .f32 0x3F000000#32

/-- The bit of a value: whether it exceeds one half. -/
abbrev bit (a : EReal) : BitVec 1 := FloatOps.cmpf (F := Ideal) (φ := .f32) .ogt a half

/-- One voxel's term with the bits widened and read signed, the weight an exclusive-or, grouped `(w · d) · d`. -/
def termWide (p t : EReal) : EReal :=
  (FloatOps.sitofp (F := Ideal) .f32 ((IntOp.xori (bit p) (bit t)).setWidth 32)
      * (p - FloatOps.sitofp (F := Ideal) .f32 ((bit t).setWidth 32)))
    * (p - FloatOps.sitofp (F := Ideal) .f32 ((bit t).setWidth 32))

/-- One voxel's term with the bits read unsigned, the weight a comparison, grouped `w · (d · d)`. -/
def term (p t : EReal) : EReal :=
  FloatOps.uitofp (F := Ideal) .f32 (IntOp.cmpi .ne (bit p) (bit t))
    * ((p - FloatOps.uitofp (F := Ideal) .f32 (bit t)) * (p - FloatOps.uitofp (F := Ideal) .f32 (bit t)))

/-- The two spellings agree at every pair of extended reals. -/
theorem termWide_eq (p t : EReal) : termWide p t = term p t := by
  unfold termWide term
  rw [widen_signed, widen_signed, xor_bits, mul_assoc]

end Cert.TopoLoss

end
-- ==== Proof.Spec.lean ====
/-
  The loss as one function of the two volumes: zero plus the sum, over all 4 · 2 · 160 · 160 · 160 voxels, of the
  voxel's term.  Both programs are shown to return this function of their arguments.
-/
import proofs.«154914_j2740189134901_1_alg».proof.Proof.Voxel

noncomputable section

namespace Cert.TopoLoss

open Idealize.ShloMosaic

/-- The shape of a volume, and of a scalar. -/
abbrev Vol : Shape := ⟨5, ![4, 2, 160, 160, 160]⟩
abbrev Scl : Shape := ⟨0, ![]⟩

/-- The masked squared error of a prediction `p` against a target `t`, summed over the volume. -/
def lossOf (p t : Vol.Idx → EReal) : Scl.Idx → EReal :=
  fun _ => Ideal.ofBits .f32 0x00000000#32 + ∑ i : Vol.Idx, term (p i) (t i)

end Cert.TopoLoss

end
-- ==== Proof.Reference.lean ====
/-
  The reference returns the loss function of its arguments.

  Its run ends with the result at the host's sum, over all five axes and from the initial value zero, of the
  elementwise product `w · (d · d)` — the weight the unsigned reading of the disagreement bit, `d` the prediction
  minus the unsigned reading of the target's bit.  A host sum over every axis is the initial value plus the sum
  over all indices, and the summand at a voxel is that voxel's term, read off definitionally.
-/
import proofs.«154914_j2740189134901_1_alg».proof.Defs
import proofs.«154914_j2740189134901_1_alg».proof.Proof.Gen.ReferenceIdeal.Run
import proofs.«154914_j2740189134901_1_alg».proof.Proof.Spec
import Idealize.ShloMosaic.PureOps.Ideal.Laws

noncomputable section

open Idealize.ShloMosaic Idealize.ShloMosaic.TcCoe Idealize.SL.Sem

namespace Cert.ReferenceIdeal.Loss

open Cert.ReferenceIdeal Cert.ReferenceIdeal.Gen Cert.TopoLoss

/-- The reference's result term, on the extended reals, is the loss of its two arguments. -/
theorem result_eq (p t : FVec Ideal S4x2x160x160x160 .f32) :
    Host.reduceAdd (mulf (uitofp .f32 (cmpi .ne (cmpf .ogt p (broadcastInDim S4x2x160x160x160 ![] bcast_S_S4x2x160x160x160 (constant S_ .f32 0x3F000000#32))) (cmpf .ogt t (broadcastInDim S4x2x160x160x160 ![] bcast_S_S4x2x160x160x160 (constant S_ .f32 0x3F000000#32))))) (mulf (subf p (uitofp .f32 (cmpf .ogt t (broadcastInDim S4x2x160x160x160 ![] bcast_S_S4x2x160x160x160 (constant S_ .f32 0x3F000000#32))))) (subf p (uitofp .f32 (cmpf .ogt t (broadcastInDim S4x2x160x160x160 ![] bcast_S_S4x2x160x160x160 (constant S_ .f32 0x3F000000#32))))))) (constant S_ .f32 0x00000000#32) reducesTo_S4x2x160x160x160_S_d0_1_2_3_4 h_S_
      = lossOf p t := by
  funext j
  show Ideal.hostReduceAdd reducesTo_S4x2x160x160x160_S_d0_1_2_3_4 _ _ j = _
  rw [Ideal.hostReduceAdd_total _ (fun b => b.elim0)]
  rfl

end Cert.ReferenceIdeal.Loss

end
-- ==== Proof.Running.lean ====
/-
  What the scratch accumulator and the output hold after each grid point, as values.

  The kernel walks the two flattened arrays in 32 blocks of 8000 rows.  At every point it adds the block's sum of
  voxel terms to a one-word scratch accumulator, which it clears first at the first point; at the last point it
  copies the accumulator into the one-word output.  So after point `n` the accumulator holds the running total
  `update xₙ (… (update x₁ (update x₀ zero)))`, where `update x a = a + (block sum of x)` is the body's one
  payload and `zero` the cleared word, and what the last point stores into the output is the running total after
  that point.  Everything here holds at any float instance: it is about which stores cover what, not about
  arithmetic.
-/
import proofs.«154914_j2740189134901_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Loss

open Cert.KernelIdeal Cert.KernelIdeal.Gen

variable {F : FTy → Type} [FloatOps F]

theorem hz : (![0, 0] : Fin 2 → Nat) = fun _ => 0 := funext fun a => by fin_cases a <;> rfl

/-! ## One point: what the body's stores leave -/

/-- A middle point (neither first nor last) leaves in the accumulator, which held `xs`, the update of `xs` by
    the point's two blocks: its one store covers the word, and its three loads read whole buffers. -/
theorem scratch_mid (c : Dev nD) (i : grid0.Coords) (a1 : Memref sig .tc .vmem S8000x128 .f32) (h1 : a1.IsWhole)
    (a2 : Memref sig .tc .vmem S8000x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S8000x128 .f32) (xs : Vec F S1x1 .f32) :
    sout0_B_0 c i a1 h1 a2 h2 a3 h3 a4 h4 hc0 hc1 x0 x1 xs = k0_pay2 x0 x1 xs := by
  unfold sout0_B_0
  rw [View.read_writes_eq_canon _ _ _ (scover0_B_0 c i a1 h1 a2 h2 a3 h3 a4 h4 hc0 hc1 x0 x1 xs)]
  unfold kernelRun0_B
  dsimp only
  sl_unfold_words
  rw [View.canon_unit_zero hz]
  simp only [View.readAt_eq_ld, h1.read_unread, h2.read_unread, h4.read_unread, View.ld_unit_zero (S := S8000x128) hz,
    View.ld_unit_zero (S := S1x1) hz]

/-- The last point leaves the same in the accumulator. -/
theorem scratch_last (c : Dev nD) (i : grid0.Coords) (a1 : Memref sig .tc .vmem S8000x128 .f32) (h1 : a1.IsWhole)
    (a2 : Memref sig .tc .vmem S8000x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S8000x128 .f32) (xs : Vec F S1x1 .f32) :
    sout0_C_0 c i a1 h1 a2 h2 a3 h3 a4 h4 hc0 hc1 x0 x1 xs = k0_pay2 x0 x1 xs := by
  unfold sout0_C_0
  rw [View.read_writes_eq_canon _ _ _ (scover0_C_0 c i a1 h1 a2 h2 a3 h3 a4 h4 hc0 hc1 x0 x1 xs)]
  unfold kernelRun0_C
  dsimp only
  sl_unfold_words
  rw [View.canon_unit_zero hz]
  simp only [View.readAt_eq_ld, h1.read_unread, h2.read_unread, h4.read_unread, View.ld_unit_zero (S := S8000x128) hz,
    View.ld_unit_zero (S := S1x1) hz]

/-- … and stores into the output what it has just left in the accumulator: the output's one store writes the
    accumulator read back after the update. -/
theorem out_last (c : Dev nD) (i : grid0.Coords) (a1 : Memref sig .tc .vmem S8000x128 .f32) (h1 : a1.IsWhole)
    (a2 : Memref sig .tc .vmem S8000x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S8000x128 .f32) (xs : Vec F S1x1 .f32) :
    out0_C_2 c i a1 h1 a2 h2 a3 h3 a4 h4 hc0 hc1 x0 x1 xs = k0_pay2 x0 x1 xs := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero hz]
  simp only [View.readCov_unit_zero (S := S1x1) _ hz, View.readAt_eq_ld, h1.read_unread, h2.read_unread, h4.read_unread,
    View.ld_unit_zero (S := S8000x128) hz, View.ld_unit_zero (S := S1x1) hz]

/-- The first point clears the accumulator, reads the cleared word back and leaves its update: the later of its
    two stores covers the word, and the load between them reads the first store's value. -/
theorem scratch_first (c : Dev nD) (i : grid0.Coords) (a1 : Memref sig .tc .vmem S8000x128 .f32) (h1 : a1.IsWhole)
    (a2 : Memref sig .tc .vmem S8000x128 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S8000x128 .f32) :
    sout0_A_0 c i a1 h1 a2 h2 a3 h3 a4 h4 hc0 hc1 x0 x1 = k0_pay2 x0 x1 k0_pay1 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S8000x128) hz]

/-! ## All points: the running total -/

variable (m : (ℓ : Loc nD τ sig) → Buf (Elt F) ℓ)

/-- The block of the flattened prediction that point `t` reads, and the block of the flattened target. -/
abbrev predBlock (c : Dev nD) (t : Fin cfg0.N) : Vec F S8000x128 .f32 := iblk m c 0 t
abbrev targBlock (c : Dev nD) (t : Fin cfg0.N) : Vec F S8000x128 .f32 := iblk m c 1 t

/-- The running total after point `n`: the cleared word updated by the blocks of points `0 … n`, in order. -/
def running (c : Dev nD) : (n : ℕ) → n < cfg0.N → Vec F S1x1 .f32
  | 0, h => k0_pay2 (predBlock m c ⟨0, h⟩) (targBlock m c ⟨0, h⟩) k0_pay1
  | n + 1, h => k0_pay2 (predBlock m c ⟨n + 1, h⟩) (targBlock m c ⟨n + 1, h⟩) (running c n (Nat.lt_of_succ_lt h))

/-- The accumulator after point `n` holds the running total — by induction on the point: the first point by
    its two stores, a later one by its one store over what the point before left. -/
theorem scratch_eq (c : Dev nD) : ∀ (n : ℕ) (h : n < cfg0.N), (outsAt0 m c n h).2 = running m c n h
  | 0, h => by
    rw [outsAt0_A m c ⟨0, h⟩ rfl (by dsimp only; omega)]
    dsimp only
    exact scratch_first (F := F) ..
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]; dsimp only
      rw [scratch_last]
      show k0_pay2 _ _ (outsAt0 m c n _).2 = k0_pay2 _ _ (running m c n _)
      rw [scratch_eq c n]
    · rw [outsAt0_B m c ⟨n + 1, h⟩ h0 h1]; dsimp only
      rw [scratch_mid]
      show k0_pay2 _ _ (outsAt0 m c n _).2 = k0_pay2 _ _ (running m c n _)
      rw [scratch_eq c n]

/-- The last point, number 31. -/
abbrev lastPoint : Fin cfg0.N := ⟨31, by rw [show cfg0.N = 32 from N_0]; decide⟩

/-- The loss as the kernel leaves it in the one-word output array: the running total after the last point. -/
abbrev total (c : Dev nD) : Buf (Elt F) ((c : Thread nD τ).loc main_v2) := running m c 31 lastPoint.isLt

/-- What the last point leaves in the output's staging word is that total. -/
theorem out_eq (c : Dev nD) : (outsAt0 m c lastPoint.val lastPoint.isLt).1 = total m c := by
  have h0 : ¬(lastPoint : Fin cfg0.N).val % 32 = 0 := by decide
  have h1 : (lastPoint : Fin cfg0.N).val % 32 = 31 := by decide
  rw [outsAt0_C m c lastPoint h0 h1]; dsimp only
  rw [out_last]
  show k0_pay2 _ _ (outsAt0 m c 30 _).2 = k0_pay2 _ _ (running m c 30 _)
  rw [scratch_eq m c 30]

end Cert.KernelIdeal.Loss

end
-- ==== Proof.Result.lean ====
/-
  From the last point's store to the program's result.

  Only the last grid point writes the output's one-word block back, and that block is the whole one-word array:
  so after the region the array holds the running total after the last point.  The one host operation after the
  region reshapes the 1 × 1 array to a scalar.  Read together with the frame run, every fair execution of the
  program ends with the scalar result at that reshaped total and the two arguments unchanged.  This holds at any
  float instance.
-/
import proofs.«154914_j2740189134901_1_alg».proof.Proof.Running
import Idealize.ShloMosaic.Lib.StableHlo.Run

noncomputable section

open Idealize.ShloMosaic Idealize.ShloMosaic.TcCoe Idealize.SL.Sem
open Idealize.ShloMosaic.Pipeline (Dat)

namespace Cert.KernelIdeal.Loss

open Cert.KernelIdeal Cert.KernelIdeal.Gen

variable {F : FTy → Type} [FloatOps F]
variable (m : (ℓ : Loc nD τ sig) → Buf (Elt F) ℓ) (ρ : Dev nD → PrngReg)

/-- The one write-back, at the last point, writes the total: the output's block at offset zero of the one-word
    array, read back through the block, is the array. -/
theorem flushed_eq (c : Dev nD) (t : Fin cfg0.N) (hf : (cfg0.win 2).flush t = true) :
    (dats m 0 c).flushed 2 t = ((cfg0.win 2).blk t).view.read (Elt F) (total m c) := by
  have hN : cfg0.N = 32 := N_0
  have h31 : t.val = 31 := by have := (flush0_2 t).mp hf; have := t.isLt; omega
  obtain rfl : t = lastPoint := Fin.ext h31
  show (cfg0.win 2).cut (grid0.coords lastPoint) ((dats m 0 c).after 2 lastPoint) = _
  rw [after0_2, out_eq]
  have hz' : (fun a => win0_2.index lastPoint a * main_v2.ty.shape.size a) = fun _ => 0 :=
    funext fun a => by fin_cases a <;> decide
  exact (Memref.read_access_unit_zero (Elt F) main_v2 hz' (fun a => by rw [congrFun hz' a]; simp) (total m c)).symm

/-- So after the region the output array holds the total: the last point's block covers its one index. -/
theorem array_eq (c : Dev nD) : (dats m 0 c).arrAt 2 cfg0.N = total m c :=
  (dats m 0 c).arrAt_eq_of_cover 2 (total m c) (flushed_eq m c) fun i =>
    ⟨lastPoint, (flush0_2 lastPoint).mpr rfl, by
      show i ∈ ((View.whole main_v2).slice (win0_2.rect lastPoint)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index lastPoint 0 * win0_2.size 0 ≤ (i 0 : Nat)
          ∧ (i 0 : Nat) < win0_2.index lastPoint 0 * win0_2.size 0 + win0_2.xsize (grid0.coords lastPoint) 0
        rw [show win0_2.index lastPoint 0 * win0_2.size 0 = 0 from by decide +kernel,
          show win0_2.xsize (grid0.coords lastPoint) 0 = 1 from by decide +kernel]; omega
      | ⟨1, _⟩ =>
        show win0_2.index lastPoint 1 * win0_2.size 1 ≤ (i 1 : Nat)
          ∧ (i 1 : Nat) < win0_2.index lastPoint 1 * win0_2.size 1 + win0_2.xsize (grid0.coords lastPoint) 1
        rw [show win0_2.index lastPoint 1 * win0_2.size 1 = 0 from by decide +kernel,
          show win0_2.xsize (grid0.coords lastPoint) 1 = 1 from by decide +kernel]; omega⟩

/-- The loss as the program returns it: the one-word total reshaped to a scalar. -/
abbrev loss (c : Dev nD) : Buf (Elt F) ((c : Thread nD τ).loc main_v3) := shapeCast S_ (total m c) shapeCasts_S1x1_S_

/-- The host reshape after the region, applied to what the region leaves, gives that scalar. -/
theorem tail_eq (c : Dev nD) :
    Pipeline.afterTail₀ cfgs (dats m) 0 (V0 m) [hostOps1] c main_v3 = loss m c := by
  unfold Pipeline.afterTail₀
  show StableHlo.after hostOps1 _ (Proc.devRef .tc main_v3) = _
  after_results
  have e : Pipeline.withArrays (cfgs 0).spec c (V0 m c) (fun w => (dats m 0 c).arrAt w (cfgs 0).N)
      (Proc.devRef .tc main_v2) = total m c :=
    (Pipeline.withArrays_arr spec0 launch0.win.arr_inj c _ _ 2).trans (array_eq m c)
  exact congrArg (fun v => shapeCast S_ v shapeCasts_S1x1_S_) e

/-- The run, read: the scalar result at the reshaped total, the two arguments unchanged. -/
theorem run : θ_run defs (onTc (τ := τ) (main (F := F))) ⟨m, fun _ => 0, ρ⟩ fun r => ∀ c : Dev nD,
      r.2.mem ((c.tc : Thread nD τ).loc main_v3) = loss m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Loss

end
-- ==== Proof.LibSums.lean ====
/-
  Three re-indexings of finite sums, for reading a tiled sum-reduction as one sum over the whole array.

  * A sum-reduction along any set of axes, summed over all of its results, is the sum of its source: every source
    index reduces to exactly one result index, so the fibres of the reduction partition the source.
  * A reshape keeps the multiset of entries, so it keeps their sum.
  * A sum over `a · b` consecutive positions is the sum over `a` consecutive runs of `b` positions each.
-/
import Idealize.ShloMosaic.PureOps.Ideal
import Idealize.ShloMosaic.PureOps.Ideal.Laws
import Idealize.ShloMosaic.Lib.ValueIdx

noncomputable section

namespace Cert.LibSums

open Idealize.ShloMosaic

/-- At the exact values, the results of a `vector.multi_reduction <add>` (along any axes) add up to the sum of
    the source: the fibres `{i | drop i = k}` over the result indices `k` partition the source indices. -/
theorem sum_multiReduction_add {φ : FTy} {s t : Shape} {axes : List (Fin s.rank)} (src : FVec Ideal s φ)
    (acc : BitVec φ.bits) (h : s.Reduces axes t) (hφ : FKind.Formats φ) (hacc : acc = FKind.add.neutral φ hφ) :
    ∑ k : t.Idx, multiReduction .add axes t src acc h hφ hacc k = ∑ i : s.Idx, src i := by
  show ∑ k : t.Idx, ∑ i ∈ Finset.univ.filter (fun i => h.drop i = k), src i = _
  exact Finset.sum_fiberwise _ _ _

/-- The entries of a reshaped array add up to the sum of the array: the reshape is a bijection of indices. -/
theorem sum_shapeCast {M : Type} [AddCommMonoid M] {s t : Shape} (x : s.Idx → M) (h : s.ShapeCasts t) :
    ∑ j : t.Idx, shapeCast t x h j = ∑ i : s.Idx, x i :=
  Equiv.sum_comp (Shape.reshapeEquiv h) x

/-- Place `r` of run `t`, among `n = a · b` positions cut into `a` runs of `b`: position `r + b · t`. -/
def runEquiv (a b n : ℕ) (h : a * b = n) : Fin a × Fin b ≃ Fin n := finProdFinEquiv.trans (finCongr h)

theorem runEquiv_val (a b n : ℕ) (h : a * b = n) (t : Fin a) (r : Fin b) :
    (runEquiv a b n h (t, r)).val = r.val + b * t.val := rfl

/-- A sum over `n = a · b` positions, run by run. -/
theorem sum_runs {M : Type} [AddCommMonoid M] {a b n : ℕ} (h : a * b = n) (K : Fin n → M) :
    ∑ R, K R = ∑ t : Fin a, ∑ r : Fin b, K (runEquiv a b n h (t, r)) := by
  rw [← Equiv.sum_comp (runEquiv a b n h) K, Fintype.sum_prod_type]

end Cert.LibSums

end
-- ==== Proof.BlockSum.lean ====
/-
  The body's two payloads read on the extended reals.

  The word the first point stores is zero.  The update adds to the accumulator the block's total: the body sums
  each row's 128 voxel terms, then the 8000 row sums; the results of a sum-reduction add up to the sum of its
  source, and a reshape keeps the sum, so the two stages together are the sum of the voxel terms over the whole
  8000 × 128 block — and each entry of the vector they reduce is one voxel's term (the widened, `(w · d) · d`
  spelling) of the two blocks' entries there.
-/
import proofs.«154914_j2740189134901_1_alg».proof.Proof.Gen.KernelIdeal.Skeleton
import proofs.«154914_j2740189134901_1_alg».proof.Proof.Voxel
import proofs.«154914_j2740189134901_1_alg».proof.Proof.LibSums
import Idealize.ShloMosaic.Lib.Pipeline.Value
import Idealize.ShloMosaic.PureOps.Ideal.Laws

noncomputable section

open Idealize.ShloMosaic Idealize.ShloMosaic.TcCoe

namespace Cert.KernelIdeal.Loss

open Cert.KernelIdeal Cert.KernelIdeal.Gen Cert.TopoLoss

/-- The cleared accumulator word is zero. -/
theorem cleared_apply (j : S1x1.Idx) : k0_pay1 (F := Ideal) j = Ideal.ofBits .f32 0x00000000#32 := rfl

/-- Lanes first, then rows: the two sum-reductions of a block, with the reshapes between them, give the sum
    of all of the block's entries. -/
theorem lanes_then_rows (v : FVec Ideal S8000x128 .f32) (j : S1x1.Idx) :
    shapeCast S1x1 (multiReduction .add [0] S1
        (shapeCast S8000x1 (multiReduction .add [1] S8000 v 0x00000000#32 reduces_S8000x128_S8000 (.inl rfl) rfl)
          shapeCasts_S8000_S8000x1)
        0x00000000#32 reduces_S8000x1_S1 (.inl rfl) rfl) shapeCasts_S1_S1x1 j
      = ∑ y : S8000x128.Idx, v y := by
  refine (Ideal.multiReduction_add_total _ _ reduces_S8000x1_S1 (fun b => ?_) (.inl rfl) rfl
    (Shape.reshapeEquiv shapeCasts_S1_S1x1 j)).trans ?_
  · fin_cases b; rfl
  · exact (Cert.LibSums.sum_shapeCast _ _).trans (Cert.LibSums.sum_multiReduction_add v _ _ _ _)

/-- The update at the accumulator's one index: the accumulator's word plus the sum, over the block, of the voxel
    terms of the prediction block's and the target block's entries. -/
theorem update_apply (x0 x1 : Vec Ideal S8000x128 .f32) (a : Vec Ideal S1x1 .f32) (j : S1x1.Idx) :
    k0_pay2 (F := Ideal) x0 x1 a j = a j + ∑ y : S8000x128.Idx, termWide (x0 y) (x1 y) := by
  unfold k0_pay2
  simp only [shapeCast_self]
  refine congrArg (a j + ·) ((lanes_then_rows _ j).trans (Finset.sum_congr rfl fun y _ => ?_))
  rfl

end Cert.KernelIdeal.Loss

end
-- ==== Proof.Value.lean ====
/-
  The kernel returns the loss function of its arguments, on the extended reals.

  * The running total after point `n` is zero plus the block totals of points `0 … n` (induction on the point:
    each update adds one block's total; addition of extended reals is associative).
  * Entry `(r, l)` of the block point `t` reads is entry `(8000 · t + r, l)` of the flattened array: the index map
    sends point `t` to block row `t`, block column 0.  So the 32 block totals together are the sum over all
    256000 rows and 128 lanes of the flattened arrays' voxel terms: the rows run by run.
  * The flattened arrays are reshapes of the volumes, both by the one bijection of indices, so that sum is the sum
    over the volume of the voxel terms — in the widened `(w · d) · d` spelling, which equals the other one.
  No step uses that the inputs are finite: only associativity and commutativity of the two operations.
-/
import proofs.«154914_j2740189134901_1_alg».proof.Proof.Result
import proofs.«154914_j2740189134901_1_alg».proof.Proof.BlockSum
import proofs.«154914_j2740189134901_1_alg».proof.Proof.Spec
import Idealize.ShloMosaic.Lib.ValueIdx

noncomputable section

open Idealize.ShloMosaic Idealize.ShloMosaic.TcCoe Idealize.SL.Sem
open Idealize.ShloMosaic.Pipeline (Dat)

namespace Cert.KernelIdeal.Loss

open Cert.KernelIdeal Cert.KernelIdeal.Gen Cert.TopoLoss Cert.LibSums ValueIdx

variable (m : (ℓ : Loc nD τ sig) → Buf (Elt Ideal) ℓ)

/-! ## The running total is zero plus the block totals -/

/-- The total of the voxel terms over the block that point `t` reads. -/
def blockTotal (c : Dev nD) (t : Fin cfg0.N) : EReal :=
  ∑ y : S8000x128.Idx, termWide (predBlock m c t y) (targBlock m c t y)

/-- The same by the point's number (zero past the grid). -/
def blockTotalAt (c : Dev nD) (n : ℕ) : EReal := if h : n < cfg0.N then blockTotal m c ⟨n, h⟩ else 0

theorem blockTotalAt_of_lt (c : Dev nD) (n : ℕ) (h : n < cfg0.N) : blockTotalAt m c n = blockTotal m c ⟨n, h⟩ :=
  dif_pos h

theorem running_apply (c : Dev nD) (j : S1x1.Idx) : ∀ (n : ℕ) (h : n < cfg0.N),
    running m c n h j = Ideal.ofBits .f32 0x00000000#32 + ∑ t ∈ Finset.range (n + 1), blockTotalAt m c t
  | 0, h => by
    rw [running, update_apply, cleared_apply, Finset.sum_range_one, blockTotalAt_of_lt m c 0 h]
    rfl
  | n + 1, h => by
    rw [running, update_apply, running_apply c j n, Finset.sum_range_succ _ (n + 1), add_assoc,
      blockTotalAt_of_lt m c (n + 1) h]
    rfl

/-! ## A block's entries are the flattened arrays' -/

/-- The flattened prediction and target, as the region finds them. -/
abbrev flatPred (c : Dev nD) : S256000x128.Idx → EReal := V m c main_v0
abbrev flatTarg (c : Dev nD) : S256000x128.Idx → EReal := V m c main_v1

/-- Point `t` reads block row `t`, block column 0 of either array. -/
theorem pred_index : ∀ t : Fin cfg0.N, win0_0.index t 0 = t.val ∧ win0_0.index t 1 = 0 :=
  (by decide +kernel : ∀ t : Fin grid0.N, win0_0.index t 0 = t.val ∧ win0_0.index t 1 = 0)
theorem targ_index : ∀ t : Fin cfg0.N, win0_1.index t 0 = t.val ∧ win0_1.index t 1 = 0 :=
  (by decide +kernel : ∀ t : Fin grid0.N, win0_1.index t 0 = t.val ∧ win0_1.index t 1 = 0)

/-- Row `r` of block `t`, among the 256000 rows. -/
abbrev rowOf (t : Fin 32) (r : Fin 8000) : Fin 256000 := runEquiv 32 8000 256000 (by norm_num) (t, r)

theorem predBlock_apply (c : Dev nD) (t : Fin cfg0.N) (tt : Fin 32) (htt : tt.val = t.val) (r : Fin 8000) (l : Fin 128) :
    predBlock m c t (ix2 r l) = flatPred m c (ix2 (rowOf tt r) l) := by
  show iblk m c 0 t (ix2 r l) = _
  unfold iblk
  rw [View.read_apply]
  show V m c main_v0 _ = V m c main_v0 _
  congr 1
  funext a
  apply Fin.ext
  match a with
  | ⟨0, _⟩ =>
    show win0_0.index t 0 * 8000 + 1 * r.val = r.val + 8000 * tt.val
    rw [(pred_index t).1, htt]; omega
  | ⟨1, _⟩ =>
    show win0_0.index t 1 * 128 + 1 * l.val = l.val
    rw [(pred_index t).2]; omega

theorem targBlock_apply (c : Dev nD) (t : Fin cfg0.N) (tt : Fin 32) (htt : tt.val = t.val) (r : Fin 8000) (l : Fin 128) :
    targBlock m c t (ix2 r l) = flatTarg m c (ix2 (rowOf tt r) l) := by
  show iblk m c 1 t (ix2 r l) = _
  unfold iblk
  rw [View.read_apply]
  show V m c main_v1 _ = V m c main_v1 _
  congr 1
  funext a
  apply Fin.ext
  match a with
  | ⟨0, _⟩ =>
    show win0_1.index t 0 * 8000 + 1 * r.val = r.val + 8000 * tt.val
    rw [(targ_index t).1, htt]; omega
  | ⟨1, _⟩ =>
    show win0_1.index t 1 * 128 + 1 * l.val = l.val
    rw [(targ_index t).2]; omega

/-- The voxel term at a position of the flattened arrays. -/
def flatTerm (c : Dev nD) (j : S256000x128.Idx) : EReal := termWide (flatPred m c j) (flatTarg m c j)

/-- A block's total is the sum of the flattened arrays' voxel terms over the block's rows. -/
theorem blockTotal_eq (c : Dev nD) (t : Fin cfg0.N) (tt : Fin 32) (htt : tt.val = t.val) :
    blockTotal m c t = ∑ r : Fin 8000, ∑ l : Fin 128, flatTerm m c (ix2 (rowOf tt r) l) := by
  unfold blockTotal
  rw [sum_idx2]
  refine Finset.sum_congr rfl fun r _ => Finset.sum_congr rfl fun l _ => ?_
  rw [predBlock_apply m c t tt htt, targBlock_apply m c t tt htt]
  rfl

/-- All 32 block totals together: the sum of the voxel terms over the flattened arrays. -/
theorem blocks_sum (c : Dev nD) :
    ∑ t ∈ Finset.range 32, blockTotalAt m c t = ∑ j : S256000x128.Idx, flatTerm m c j := by
  have hN : cfg0.N = 32 := N_0
  rw [sum_idx2, sum_runs (show 32 * 8000 = 256000 by norm_num), ← Fin.sum_univ_eq_sum_range]
  refine Finset.sum_congr rfl fun tt _ => ?_
  rw [blockTotalAt_of_lt m c tt.val (by rw [hN]; exact tt.isLt)]
  exact blockTotal_eq m c ⟨tt.val, _⟩ tt rfl

/-! ## The flattened arrays are reshapes of the volumes -/

theorem flatPred_eq (c : Dev nD) :
    flatPred m c = shapeCast S256000x128 (m ((c : Thread nD τ).loc main_arg0)) shapeCasts_S4x2x160x160x160_S256000x128 := by
  show StableHlo.after (List.flatten [hostOps0]) (fun b => m (c, b)) (Proc.devRef .tc main_v0) = _
  simp only [hostOps0, List.flatten_cons, List.flatten_nil, List.append_nil]
  after_results
  rfl

theorem flatTarg_eq (c : Dev nD) :
    flatTarg m c = shapeCast S256000x128 (m ((c : Thread nD τ).loc main_arg1)) shapeCasts_S4x2x160x160x160_S256000x128 := by
  show StableHlo.after (List.flatten [hostOps0]) (fun b => m (c, b)) (Proc.devRef .tc main_v1) = _
  simp only [hostOps0, List.flatten_cons, List.flatten_nil, List.append_nil]
  after_results
  rfl

/-- So the sum over the flattened arrays is the sum over the volume. -/
theorem flat_sum (c : Dev nD) :
    ∑ j : S256000x128.Idx, flatTerm m c j
      = ∑ i : Vol.Idx, term (m ((c : Thread nD τ).loc main_arg0) i) (m ((c : Thread nD τ).loc main_arg1) i) := by
  unfold flatTerm
  rw [flatPred_eq, flatTarg_eq]
  rw [← Equiv.sum_comp (Shape.reshapeEquiv shapeCasts_S4x2x160x160x160_S256000x128)
    (fun i : Vol.Idx => term (m ((c : Thread nD τ).loc main_arg0) i) (m ((c : Thread nD τ).loc main_arg1) i))]
  refine Finset.sum_congr rfl fun j _ => ?_
  exact termWide_eq _ _

/-! ## The result -/

/-- The scalar the kernel's program returns is the loss of its two arguments. -/
theorem loss_eq (c : Dev nD) :
    loss m c = lossOf (m ((c : Thread nD τ).loc main_arg0)) (m ((c : Thread nD τ).loc main_arg1)) := by
  funext j
  show running m c 31 lastPoint.isLt (Shape.reshapeEquiv shapeCasts_S1x1_S_ j) = _
  rw [running_apply, blocks_sum, flat_sum]
  rfl

end Cert.KernelIdeal.Loss

end
-- ==== Proof.lean ====
/-
  The masked squared error of a prediction against a target, summed over a 4 × 2 × 160 × 160 × 160 volume: a
  kernel that streams the two flattened arrays in 32 blocks of 8000 × 128 and accumulates each block's total in a
  one-word scratch, against the plain sum over all five axes.

  Both programs return `0 + ∑ over the voxels of w · (p − f)²`, where the weight `w` is 1 where the prediction
  and the target fall on different sides of one half and 0 elsewhere, and `f` is 1 where the target exceeds one
  half and 0 elsewhere.  They differ only in how the two 0/1 values are converted from bits (equal: a bit widened
  with zeros is 0 or 1 however it is read), in the grouping of the product (`(w · d) · d` against `w · (d · d)`:
  multiplication of extended reals is associative) and in the grouping of the sum (per row, per block, block after
  block, against all at once: addition of extended reals is associative and commutative, the 32 blocks tile the
  flattened array, and the flattening is a bijection of indices).  None of these steps needs the inputs to be
  finite, so the precondition is not opened.

  The three frames: the kernel's two are its frame certificates (the body run once per control case: first point,
  middle points, last point); the reference's is its run with the result dropped.  The idealized kernel is the
  kernel's own text read on the extended reals, no operation rewritten, so the preservation claim is `True`.
-/
import proofs.«154914_j2740189134901_1_alg».proof.Defs
import proofs.«154914_j2740189134901_1_alg».proof.Proof.Gen.Kernel
import proofs.«154914_j2740189134901_1_alg».proof.Proof.Gen.Kernel.Skeleton
import proofs.«154914_j2740189134901_1_alg».proof.Proof.Gen.Kernel.Launch
import proofs.«154914_j2740189134901_1_alg».proof.Proof.Gen.Kernel.Points
import proofs.«154914_j2740189134901_1_alg».proof.Proof.Gen.Kernel.Frame
import proofs.«154914_j2740189134901_1_alg».proof.Proof.Gen.KernelIdeal
import proofs.«154914_j2740189134901_1_alg».proof.Proof.Gen.KernelIdeal.Skeleton
import proofs.«154914_j2740189134901_1_alg».proof.Proof.Gen.KernelIdeal.Launch
import proofs.«154914_j2740189134901_1_alg».proof.Proof.Gen.KernelIdeal.Points
import proofs.«154914_j2740189134901_1_alg».proof.Proof.Gen.KernelIdeal.Frame
import proofs.«154914_j2740189134901_1_alg».proof.Proof.Gen.ReferenceIdeal
import proofs.«154914_j2740189134901_1_alg».proof.Proof.Gen.ReferenceIdeal.Run
import proofs.«154914_j2740189134901_1_alg».proof.Proof.Gen.Pre_finite_inputs
import proofs.«154914_j2740189134901_1_alg».proof.Proof.Reference
import proofs.«154914_j2740189134901_1_alg».proof.Proof.Value
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals the kernel's scalar ends at the loss of its arguments and the reference's at the loss of
    its own, and the arguments agree. -/
theorem algebraic : Cert.algebraic_KernelIdeal_ReferenceIdeal := by
  intro m ρ m' ρ' _ hagree
  refine ⟨fun c => Cert.KernelIdeal.Loss.loss m c, Cert.KernelIdeal.Loss.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Loss.result_eq, (hagree c).1, (hagree c).2]
  exact (Cert.KernelIdeal.Loss.loss_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
